-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel

variable [Facts]

def fn {F : FTy → Type} [FloatOps F] (main_arg0 : FVec F S8388608x2 .f32) (main_arg1 : FVec F S8388608x2 .f32) (main_arg2 : FVec F S8388608x2 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  let main_v9 : FVec F S8388608x2 .f32 := Host.absf main_arg2
  let main_cst_2 : FVec F S_ .f32 := constant S_ .f32 0x7F800000#32
  let main_v10 : FVec F S8388608x2 .f32 := broadcastInDim S8388608x2 ![] bcast_S_S8388608x2 main_cst_2
  let main_v11 : IVec S8388608x2 1 := cmpf .olt main_v9 main_v10
  let main_c_3 : IVec S_ 1 := constantI S_ 1 1#1
  let main_v12 : IVec S_ 1 := (fun x v => Host.reduce IntOp.andi x v reducesTo_S8388608x2_S_d0_1 h_S_) main_v11 main_c_3
  let main_v13 : IVec S_ 1 := andi main_v8 main_v12
  main_v13
-- ==== Kernel.lean ====
abbrev S8388608x2 : Shape := ⟨2, ![8388608, 2]⟩
abbrev S8192x2 : Shape := ⟨2, ![8192, 2]⟩
abbrev S8192x1 : Shape := ⟨2, ![8192, 1]⟩
abbrev S8192 : Shape := ⟨1, ![8192]⟩

abbrev nBuf : Space → Nat
  | .hbm => 4
  | .vmem => 8
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S8388608x2, .f32⟩
  | .hbm, ⟨3, _⟩ => ⟨S8388608x2, .f32⟩
  | .local _ .vmem, ⟨0, _⟩ => ⟨S8192x2, .f32⟩
  | .local _ .vmem, ⟨1, _⟩ => ⟨S8192x2, .f32⟩
  | .local _ .vmem, ⟨2, _⟩ => ⟨S8192x2, .f32⟩
  | .local _ .vmem, ⟨3, _⟩ => ⟨S8192x2, .f32⟩
  | .local _ .vmem, ⟨4, _⟩ => ⟨S8192x2, .f32⟩
  | .local _ .vmem, ⟨5, _⟩ => ⟨S8192x2, .f32⟩
  | .local _ .vmem, ⟨6, _⟩ => ⟨S8192x2, .f32⟩
  | .local _ .vmem, ⟨7, _⟩ => ⟨S8192x2, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8192x2_S8192x2_0_0 : ∀ a, (![0, 0] : Fin 2 → Nat) a + S8192x2.size a ≤ S8192x2.size a
  h_S8192x2 : 0 < S8192x2.numel
  slices_S8192x2_o0_0_S8192x1 : S8192x2.Slices ![0, 0] S8192x1
  shapeCasts_S8192x1_S8192 : S8192x1.ShapeCasts S8192
  slices_S8192x2_o0_1_S8192x1 : S8192x2.Slices ![0, 1] S8192x1
  shapeCasts_S8192_S8192x1 : S8192.ShapeCasts S8192x1
  concatenates_S8192x1_S8192x1_S8192x2_d1 : Shape.Concatenates [S8192x1, S8192x1] S8192x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S8388608x2.size a
  hwx0_0 : ∀ i : grid0.Coords, EltTy.bits .f32 = 32 ∨ (Rect.block (s := S8388608x2) S8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x2.size a ≤ S8388608x2.size a
  hwx0_1 : ∀ i : grid0.Coords, EltTy.bits .f32 = 32 ∨ (Rect.block (s := S8388608x2) S8192x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x2.size a ≤ S8388608x2.size a
  hwx0_2 : ∀ i : grid0.Coords, EltTy.bits .f32 = 32 ∨ (Rect.block (s := S8388608x2) S8192x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x2.size a ≤ S8388608x2.size a
  hwx0_3 : ∀ i : grid0.Coords, EltTy.bits .f32 = 32 ∨ (Rect.block (s := S8388608x2) S8192x2.size (cc0_transform_3 i) (hinb0_3 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S8388608x2, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608, .f32⟩
  | .hbm, ⟨12, _⟩ => ⟨S8388608, .f32⟩
  | .hbm, ⟨13, _⟩ => ⟨S_, .f32⟩
  | .hbm, ⟨14, _⟩ => ⟨S8388608, .f32⟩
  | .hbm, ⟨15, _⟩ => ⟨S8388608, .f32⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S_, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S_, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S_, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S8388608, .f32⟩
  | .hbm, ⟨39, _⟩ => ⟨S_, .f32⟩
  | .hbm, ⟨40, _⟩ => ⟨S8388608, .f32⟩
  | .hbm, ⟨41, _⟩ => ⟨S8388608, .f32⟩
  | .hbm, ⟨42, _⟩ => ⟨S_, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S8388608, .f32⟩
  | .hbm, ⟨50, _⟩ => ⟨S8388608, .f32⟩
  | .hbm, ⟨51, _⟩ => ⟨S8388608, .f32⟩
  | .hbm, ⟨52, _⟩ => ⟨S8388608, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S8388608, .f32⟩
  | .hbm, ⟨59, _⟩ => ⟨S8388608x1, .f32⟩
  | .hbm, ⟨60, _⟩ => ⟨S8388608, .f32⟩
  | .hbm, ⟨61, _⟩ => ⟨S8388608, .f32⟩
  | .hbm, ⟨62, _⟩ => ⟨S8388608x1, .f32⟩
  | .hbm, ⟨63, _⟩ => ⟨S8388608, .f32⟩
  | .hbm, ⟨64, _⟩ => ⟨S8388608, .f32⟩
  | .hbm, ⟨65, _⟩ => ⟨S8388608, .f32⟩
  | .hbm, ⟨66, _⟩ => ⟨S8388608, .f32⟩
  | .hbm, ⟨67, _⟩ => ⟨S8388608, .f32⟩
  | .hbm, ⟨68, _⟩ => ⟨S8388608, .f32⟩
  | .hbm, ⟨69, _⟩ => ⟨S8388608, .f32⟩
  | .hbm, ⟨70, _⟩ => ⟨S8388608, .f32⟩
  | .hbm, ⟨71, _⟩ => ⟨S8388608, .f32⟩
  | .hbm, ⟨72, _⟩ => ⟨S8388608, .f32⟩
  | .hbm, ⟨73, _⟩ => ⟨S8388608, .f32⟩
  | .hbm, ⟨74, _⟩ => ⟨S8388608, .f32⟩
  | .hbm, ⟨75, _⟩ => ⟨S8388608, .f32⟩
  | .hbm, ⟨76, _⟩ => ⟨S8388608x1, .f32⟩
  | .hbm, ⟨77, _⟩ => ⟨S8388608x1, .f32⟩
  | .hbm, ⟨78, _⟩ => ⟨S8388608x2, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  slices_S8388608x2_S8388608x1_0_1 : S8388608x2.Slices ![0, 1] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1

variable [Facts₀]

class Facts : Prop extends Facts₀ where

variable [Facts]
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.LibColumns.lean ====
/-
  Two-column arrays `[a, 2]` taken apart into their columns and put together again, read at an index written with
  `ValueIdx.ix1` / `ix2`, for any number of rows `a`:

  • `col0_apply`, `col1_apply`: the slice `x[:, k:k+1]` cast to the vector `[a]` reads, at row `p`, the entry `x (p, k)`
    (what `x[:, k]` lowers to, in a kernel and on the host alike);
  • `bcastCol_apply`: a vector `[a]` broadcast in dimension 0 to the column `[a, 1]` reads, at `(p, u)`, the vector at `p`;
  • `join_apply`: two columns joined along axis 1 read, at `(p, j)`, the first column's row `p` when `j = 0` and the
    second's otherwise (what `jnp.stack([u, v], axis=-1)` lowers to).

  Together: a row-wise function of `x[:, 0]`, `x[:, 1]` stacked back into `[a, 2]` mentions, at `(p, j)`, row `p` only.
-/
import Idealize.ShloMosaic.Lib.Pipeline.Value
import Idealize.ShloMosaic.Lib.ValueIdx

namespace Idealize.ShloMosaic.ValueIdx

open Idealize.ShloMosaic

variable {α : Type} {a : ℕ}

/-- Column 0 of an `[a, 2]` array, taken as the slice `[0:a, 0:1]` cast to `[a]`, reads at row `p` the entry `(p, 0)`. -/
theorem col0_apply (x : (⟨2, ![a, 2]⟩ : Shape).Idx → α) (hs : (⟨2, ![a, 2]⟩ : Shape).Slices ![0, 0] ⟨2, ![a, 1]⟩)
    (hc : (⟨2, ![a, 1]⟩ : Shape).ShapeCasts ⟨1, ![a]⟩) (p : Fin a) :
    shapeCast ⟨1, ![a]⟩ (extractStridedSlice ⟨2, ![a, 1]⟩ ![0, 0] x hs) hc (ix1 p) = x (ix2 p (0 : Fin 2)) :=
  (shapeCast_apply _ hc (ix1 p) (ix2 p (0 : Fin 1)) (by
      rw [Shape.rowMajor_val_two, Shape.rowMajor_val_one]
      show p.val * 1 + 0 = p.val
      omega)).trans
    (extractStridedSlice_apply ![0, 0] x hs (ix2 p (0 : Fin 1)) (ix2 p (0 : Fin 2)) fun ax => match ax with
      | ⟨0, _⟩ => by show p.val = 0 + p.val; omega
      | ⟨1, _⟩ => by show 0 = 0 + 0; omega)

/-- Column 1 of an `[a, 2]` array, taken as the slice `[0:a, 1:2]` cast to `[a]`, reads at row `p` the entry `(p, 1)`. -/
theorem col1_apply (x : (⟨2, ![a, 2]⟩ : Shape).Idx → α) (hs : (⟨2, ![a, 2]⟩ : Shape).Slices ![0, 1] ⟨2, ![a, 1]⟩)
    (hc : (⟨2, ![a, 1]⟩ : Shape).ShapeCasts ⟨1, ![a]⟩) (p : Fin a) :
    shapeCast ⟨1, ![a]⟩ (extractStridedSlice ⟨2, ![a, 1]⟩ ![0, 1] x hs) hc (ix1 p) = x (ix2 p (1 : Fin 2)) :=
  (shapeCast_apply _ hc (ix1 p) (ix2 p (0 : Fin 1)) (by
      rw [Shape.rowMajor_val_two, Shape.rowMajor_val_one]
      show p.val * 1 + 0 = p.val
      omega)).trans
    (extractStridedSlice_apply ![0, 1] x hs (ix2 p (0 : Fin 1)) (ix2 p (1 : Fin 2)) fun ax => match ax with
      | ⟨0, _⟩ => by show p.val = 0 + p.val; omega
      | ⟨1, _⟩ => by show 1 = 1 + 0; omega)

/-- A vector `[a]` broadcast in dimension 0 to the column `[a, 1]` reads, at `(p, u)`, the vector at `p`. -/
theorem bcastCol_apply (v : (⟨1, ![a]⟩ : Shape).Idx → α) (dims : Fin 1 → Fin 2) (hd : dims 0 = 0)
    (h : (⟨1, ![a]⟩ : Shape).BroadcastsInDim ⟨2, ![a, 1]⟩ dims) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- Two columns joined along axis 1 read, at `(p, 0)`, row `p` of the first column. -/
theorem join_apply_zero (u v : (⟨2, ![a, 1]⟩ : Shape).Idx → α)
    (h : Shape.Concatenates [(⟨2, ![a, 1]⟩ : Shape), ⟨2, ![a, 1]⟩] ⟨2, ![a, 2]⟩ 1) (p : Fin a) :
    concatenate ⟨2, ![a, 2]⟩ 1 [⟨⟨2, ![a, 1]⟩, u⟩, ⟨⟨2, ![a, 1]⟩, v⟩] h (ix2 p (0 : Fin 2)) = u (ix2 p (0 : Fin 1)) :=
  concatenate_pair_apply_left (t := ⟨2, ![a, 2]⟩) (s₁ := ⟨2, ![a, 1]⟩) (s₂ := ⟨2, ![a, 1]⟩) 1 u v h (ix2 p (0 : Fin 2)) rfl
    (ix2 p (0 : Fin 1)) fun b => match b with
      | ⟨0, _⟩ => rfl
      | ⟨1, _⟩ => rfl

/-- Two columns joined along axis 1 read, at `(p, 1)`, row `p` of the second column. -/
theorem join_apply_one (u v : (⟨2, ![a, 1]⟩ : Shape).Idx → α)
    (h : Shape.Concatenates [(⟨2, ![a, 1]⟩ : Shape), ⟨2, ![a, 1]⟩] ⟨2, ![a, 2]⟩ 1) (p : Fin a) :
    concatenate ⟨2, ![a, 2]⟩ 1 [⟨⟨2, ![a, 1]⟩, u⟩, ⟨⟨2, ![a, 1]⟩, v⟩] h (ix2 p (1 : Fin 2)) = v (ix2 p (0 : Fin 1)) :=
  concatenate_pair_apply_right (t := ⟨2, ![a, 2]⟩) (s₁ := ⟨2, ![a, 1]⟩) (s₂ := ⟨2, ![a, 1]⟩) 1 u v h (ix2 p (1 : Fin 2)) rfl rfl
    (ix2 p (0 : Fin 1))
    (fun b hb => match b with
      | ⟨0, _⟩ => rfl
      | ⟨1, _⟩ => absurd rfl hb)
    rfl

/-- Two columns joined along axis 1 read, at `(p, j)`, row `p` of the first column when `j = 0` and of the second otherwise. -/
theorem join_apply (u v : (⟨2, ![a, 1]⟩ : Shape).Idx → α)
    (h : Shape.Concatenates [(⟨2, ![a, 1]⟩ : Shape), ⟨2, ![a, 1]⟩] ⟨2, ![a, 2]⟩ 1) (p : Fin a) (j : Fin 2) :
    concatenate ⟨2, ![a, 2]⟩ 1 [⟨⟨2, ![a, 1]⟩, u⟩, ⟨⟨2, ![a, 1]⟩, v⟩] h (ix2 p j)
      = if j = 0 then u (ix2 p (0 : Fin 1)) else v (ix2 p (0 : Fin 1)) := by
  obtain rfl | rfl : j = 0 ∨ j = 1 := by omega
  · rw [if_pos rfl]; exact join_apply_zero u v h p
  · rw [if_neg (by decide)]; exact join_apply_one u v h p

end Idealize.ShloMosaic.ValueIdx
-- ==== Proof.ArmDynamics.lean ====
/-
  The forward dynamics of a two-link planar arm, row by row. A row holds the joint angles `(q₁, q₂)`, the joint
  velocities `(dq₁, dq₂)` and the joint torques `(τ₁, τ₂)`; the joint accelerations solve `M(q) · qdd = τ − h(q, dq)`
  with the symmetric inertia matrix
      M₁₁ = α + 2β·cos q₂,   M₁₂ = M₂₁ = δ + β·cos q₂,   M₂₂ = δ
  and the bias (Coriolis, centrifugal and gravity terms)
      h₁ = −β·sin q₂ · (2·dq₁·dq₂ + dq₂²) + g₁·cos q₁ + g₂·cos (q₁ + q₂),
      h₂ =  β·sin q₂ · dq₁² + g₂·cos (q₁ + q₂).
  The 2×2 system is solved in closed form (Cramer's rule):
      det = M₁₁·M₂₂ − M₁₂²,   qdd₁ = (M₂₂·r₁ − M₁₂·r₂) / det,   qdd₂ = (M₁₁·r₂ − M₁₂·r₁) / det,   r = τ − h.
  The constants are the f32 words both programs carry (α = 1.7, 2β = 1, β = 0.5, δ = 0.35, g₁ = 14.715, g₂ = 4.905 to f32
  precision); each is the exact dyadic value of its word, the same on both sides, and is never evaluated. Every product
  and sum is grouped as both programs group it, so the two sides are this one function and no algebraic law is needed.
-/
import Idealize.ShloMosaic.PureOps.Ideal
import Idealize.ShloMosaic.Lib.ValueIdx

noncomputable section

namespace Cert.ArmDynamics

open Idealize.ShloMosaic Idealize.ShloMosaic.ValueIdx

/-- The extended real an f32 word denotes. -/
abbrev lit (b : BitVec 32) : EReal := Ideal.ofBits .f32 b

/-- `M₁₁ = α + 2β·cos q₂`. -/
def m11 (q2 : EReal) : EReal := lit 0x3FD9999A#32 + lit 0x3F800000#32 * Ideal.cos q2
/-- `M₁₂ = δ + β·cos q₂`. -/
def m12 (q2 : EReal) : EReal := lit 0x3EB33333#32 + lit 0x3F000000#32 * Ideal.cos q2
/-- `M₂₂ = δ`. -/
def m22 : EReal := lit 0x3EB33333#32

/-- The gravity term of the second joint, `g₂·cos (q₁ + q₂)`. -/
def grav2 (q1 q2 : EReal) : EReal := lit 0x409CF5C3#32 * Ideal.cos (q1 + q2)
/-- The gravity term of the first joint, `g₁·cos q₁ + g₂·cos (q₁ + q₂)`. -/
def grav1 (q1 q2 : EReal) : EReal := lit 0x416B70A4#32 * Ideal.cos q1 + lit 0x409CF5C3#32 * Ideal.cos (q1 + q2)

/-- `h₁ = −β·sin q₂ · (2·dq₁·dq₂ + dq₂²) + grav₁`. -/
def bias1 (q1 q2 dq1 dq2 : EReal) : EReal :=
  lit 0xBF000000#32 * Ideal.sin q2 * (lit 0x40000000#32 * dq1 * dq2 + dq2 * dq2) + grav1 q1 q2
/-- `h₂ = β·sin q₂ · dq₁² + grav₂`. -/
def bias2 (q1 q2 dq1 : EReal) : EReal :=
  lit 0x3F000000#32 * Ideal.sin q2 * dq1 * dq1 + grav2 q1 q2

/-- The determinant `M₁₁·M₂₂ − M₁₂²`. -/
def det (q2 : EReal) : EReal := m11 q2 * m22 - m12 q2 * m12 q2

/-- The first joint's acceleration, `(M₂₂·r₁ − M₁₂·r₂) / det`. -/
def accel1 (q1 q2 dq1 dq2 t1 t2 : EReal) : EReal :=
  Ideal.div (m22 * (t1 - bias1 q1 q2 dq1 dq2) - m12 q2 * (t2 - bias2 q1 q2 dq1)) (det q2)
/-- The second joint's acceleration, `(M₁₁·r₂ − M₁₂·r₁) / det`. -/
def accel2 (q1 q2 dq1 dq2 t1 t2 : EReal) : EReal :=
  Ideal.div (m11 q2 * (t2 - bias2 q1 q2 dq1) - m12 q2 * (t1 - bias1 q1 q2 dq1 dq2)) (det q2)

/-- Both accelerations of a row, by joint. -/
def accel (q1 q2 dq1 dq2 t1 t2 : EReal) (j : Fin 2) : EReal :=
  if j = 0 then accel1 q1 q2 dq1 dq2 t1 t2 else accel2 q1 q2 dq1 dq2 t1 t2

/-- The whole result array: entry `(p, j)` is joint `j`'s acceleration computed from row `p` of the three arguments. -/
def jointAccel {a : ℕ} (q dq tau : (⟨2, ![a, 2]⟩ : Shape).Idx → EReal) : (⟨2, ![a, 2]⟩ : Shape).Idx → EReal := fun i =>
  accel (q (ix2 (n0 := a) (n1 := 2) (i 0) 0)) (q (ix2 (n0 := a) (n1 := 2) (i 0) 1))
    (dq (ix2 (n0 := a) (n1 := 2) (i 0) 0)) (dq (ix2 (n0 := a) (n1 := 2) (i 0) 1))
    (tau (ix2 (n0 := a) (n1 := 2) (i 0) 0)) (tau (ix2 (n0 := a) (n1 := 2) (i 0) 1)) (i 1)

theorem jointAccel_apply {a : ℕ} (q dq tau : (⟨2, ![a, 2]⟩ : Shape).Idx → EReal) (p : Fin a) (j : Fin 2) :
    jointAccel q dq tau (ix2 p j)
      = accel (q (ix2 p 0)) (q (ix2 p 1)) (dq (ix2 p 0)) (dq (ix2 p 1)) (tau (ix2 p 0)) (tau (ix2 p 1)) j := rfl

/-- The function is local to a row: reading the three arguments through a map `e` that sends entry `(p, k)` to entry
    `(r p, k)` — a block of rows of a larger array, say — commutes with it. -/
theorem jointAccel_rows {a b : ℕ} (r : Fin a → Fin b) (e : (⟨2, ![a, 2]⟩ : Shape).Idx → (⟨2, ![b, 2]⟩ : Shape).Idx)
    (he : ∀ (p : Fin a) (k : Fin 2), e (ix2 p k) = ix2 (r p) k) (q dq tau : (⟨2, ![b, 2]⟩ : Shape).Idx → EReal)
    (y : (⟨2, ![a, 2]⟩ : Shape).Idx) :
    jointAccel (fun y => q (e y)) (fun y => dq (e y)) (fun y => tau (e y)) y = jointAccel q dq tau (e y) := by
  obtain ⟨p, k, rfl⟩ : ∃ (p : Fin a) (k : Fin 2), y = ix2 p k := ⟨y 0, y 1, eq_ix2 y⟩
  simp only [jointAccel_apply, he]

end Cert.ArmDynamics

end
-- ==== Proof.KernelRows.lean ====
/-
  The kernel's block at an entry. One grid point loads a block of 8192 rows of each argument, takes the two columns of
  each apart, computes the two joint accelerations of every row (`Cert.ArmDynamics`) and stores them side by side. So
  entry `(p, j)` of what the point stores is joint `j`'s acceleration of row `p` of the three loaded blocks, and of no
  other row.
-/
import proofs.«136738_j38482906972929_1_alg».proof.Proof.Gen.KernelIdeal.Skeleton
import proofs.«136738_j38482906972929_1_alg».proof.Proof.LibKeepdims
import proofs.«136738_j38482906972929_1_alg».proof.Proof.LibColumns
import proofs.«136738_j38482906972929_1_alg».proof.Proof.ArmDynamics

noncomputable section

namespace Cert.KernelIdeal.Rows

open Cert.KernelIdeal Cert.KernelIdeal.Gen Idealize.ShloMosaic Idealize.ShloMosaic.ValueIdx Cert.ArmDynamics

/-- The stored value at `(p, 0)` is the first joint's acceleration of row `p`: the join reads its first column there,
    the column is the vector of first accelerations, and every operation under it is row by row. -/
theorem stored_joint1 (q dq tau : Vec Ideal S8192x2 .f32) (p : Fin 8192) :
    k0_pay1 (F := Ideal) tau (k0_pay4 dq) (k0_pay6 q) (k0_pay7 q) (k0_pay8 q) (k0_pay9 (F := Ideal)) (k0_pay10 q) (k0_pay11 q dq)
        (ix2 p (0 : Fin 2))
      = accel1 (q (ix2 p 0)) (q (ix2 p 1)) (dq (ix2 p 0)) (dq (ix2 p 1)) (tau (ix2 p 0)) (tau (ix2 p 1)) := by
  unfold k0_pay1
  refine (join_apply_zero _ _ _ p).trans ?_
  refine (shapeCast_a_a1_apply _ _ p 0).trans ?_
  simp only [divf, subf, mulf, addf, cos, sin, broadcast, k0_pay2, k0_pay3, k0_pay4, k0_pay5, k0_pay6, k0_pay7, k0_pay8, k0_pay9,
    k0_pay10, k0_pay11, col0_apply, col1_apply, Ideal.divf_def, Ideal.subf_def, Ideal.mulf_def, Ideal.addf_def, Ideal.cos_def,
    Ideal.sin_def, Ideal.ofBits_def, accel1, accel2, m11, m12, m22, det, bias1, bias2, grav1, grav2, lit]

/-- The stored value at `(p, 1)` is the second joint's acceleration of row `p`. -/
theorem stored_joint2 (q dq tau : Vec Ideal S8192x2 .f32) (p : Fin 8192) :
    k0_pay1 (F := Ideal) tau (k0_pay4 dq) (k0_pay6 q) (k0_pay7 q) (k0_pay8 q) (k0_pay9 (F := Ideal)) (k0_pay10 q) (k0_pay11 q dq)
        (ix2 p (1 : Fin 2))
      = accel2 (q (ix2 p 0)) (q (ix2 p 1)) (dq (ix2 p 0)) (dq (ix2 p 1)) (tau (ix2 p 0)) (tau (ix2 p 1)) := by
  unfold k0_pay1
  refine (join_apply_one _ _ _ p).trans ?_
  refine (shapeCast_a_a1_apply _ _ p 0).trans ?_
  simp only [divf, subf, mulf, addf, cos, sin, broadcast, k0_pay2, k0_pay3, k0_pay4, k0_pay5, k0_pay6, k0_pay7, k0_pay8, k0_pay9,
    k0_pay10, k0_pay11, col0_apply, col1_apply, Ideal.divf_def, Ideal.subf_def, Ideal.mulf_def, Ideal.addf_def, Ideal.cos_def,
    Ideal.sin_def, Ideal.ofBits_def, accel1, accel2, m11, m12, m22, det, bias1, bias2, grav1, grav2, lit]

/-- The stored block, entry by entry: joint `j`'s acceleration of row `p` of the loaded blocks. -/
theorem stored_apply (q dq tau : Vec Ideal S8192x2 .f32) (p : Fin 8192) (j : Fin 2) :
    k0_pay1 (F := Ideal) tau (k0_pay4 dq) (k0_pay6 q) (k0_pay7 q) (k0_pay8 q) (k0_pay9 (F := Ideal)) (k0_pay10 q) (k0_pay11 q dq)
        (ix2 p j)
      = accel (q (ix2 p 0)) (q (ix2 p 1)) (dq (ix2 p 0)) (dq (ix2 p 1)) (tau (ix2 p 0)) (tau (ix2 p 1)) j := by
  obtain rfl | rfl : j = 0 ∨ j = 1 := by omega
  · exact (stored_joint1 q dq tau p).trans (if_pos rfl).symm
  · exact (stored_joint2 q dq tau p).trans (if_neg (by decide)).symm

end Cert.KernelIdeal.Rows

end
-- ==== Proof.KernelArray.lean ====
/-
  From blocks to the array. The grid has 1024 points; point `t` stages rows `8192·t … 8192·t + 8191` of each argument and
  of the result, all four windows moving together. What the point writes back is the row-wise function
  `Cert.ArmDynamics.jointAccel` of its three loaded blocks, and that function is local to a row, so the block written back
  is block `t` of `jointAccel` of the whole arguments. The 1024 blocks tile the result (row `r` lies in block `r / 8192`),
  so after the run the result array is `jointAccel` of the argument arrays.
-/
import proofs.«136738_j38482906972929_1_alg».proof.Proof.Gen.KernelIdeal.Value
import proofs.«136738_j38482906972929_1_alg».proof.Proof.KernelRows

noncomputable section

namespace Cert.KernelIdeal.Whole

open Cert.KernelIdeal Cert.KernelIdeal.Gen Idealize.ShloMosaic Idealize.ShloMosaic.TcCoe Idealize.SL.Sem
  Idealize.ShloMosaic.ValueIdx Cert.ArmDynamics
open Idealize.ShloMosaic.Pipeline (Dat)

variable (m : (ℓ : Loc nD τ sig) → Buf (Elt Ideal) ℓ) (ρ : Dev nD → PrngReg)

/-- The body's one access rectangle starts at the block's origin. -/
theorem origin : (![0, 0] : Fin 2 → Nat) = fun _ => 0 := funext fun a => by fin_cases a <;> rfl

/-- What a point stores is the row-wise function of its three loaded blocks, entry by entry. -/
theorem stored_eq (q dq tau : Vec Ideal S8192x2 .f32) :
    k0_pay1 (F := Ideal) tau (k0_pay4 dq) (k0_pay6 q) (k0_pay7 q) (k0_pay8 q) (k0_pay9 (F := Ideal)) (k0_pay10 q) (k0_pay11 q dq)
      = jointAccel (a := 8192) q dq tau := by
  funext j
  obtain ⟨p, k, rfl⟩ : ∃ (p : Fin 8192) (k : Fin 2), j = ix2 p k := ⟨j 0, j 1, eq_ix2 j⟩
  rw [jointAccel_apply]
  exact Rows.stored_apply q dq tau p k

/-- The result array the run should leave: the row-wise function of the argument arrays as the region finds them. -/
abbrev wholeAccel (c : Dev nD) : S8388608x2.Idx → Elt Ideal .f32 :=
  jointAccel (a := 8388608) (V m c main_arg0) (V m c main_arg1) (V m c main_arg2)

/-- At point `t` every window is on block `(t, 0)` (decided over the 1024 points). -/
theorem blockIdx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the row-wise function of the whole arguments: each input block is its
    argument read through the result's block (the windows move together), and the function is local to a row. -/
theorem flushed_eq (c : Dev nD) (t : Fin cfg0.N) :
    (dats m 0 c).flushed 3 t = ((cfg0.win 3).blk t).view.read (Elt Ideal) (wholeAccel m c) := by
  rw [Value.flushed3]
  unfold out0_3
  rw [View.canon_unit_zero origin]
  simp only [View.ld_unit_zero (S := S8192x2) origin]
  rw [stored_eq]
  obtain ⟨e0, e1, e2, e3, e4, e5, e6, e7⟩ := blockIdx t
  have ht : t.val < 1024 := t.isLt
  have h0 : iblk m c 0 t = fun y => V m c main_arg0 (((cfg0.win 3).blk t).view.emb y) := by
    funext y
    show V m c main_arg0 (((cfg0.win 0).blk t).view.emb y) = V m c main_arg0 (((cfg0.win 3).blk t).view.emb y)
    refine congrArg (V m c main_arg0) (funext fun a => Fin.ext ?_)
    match a with
    | ⟨0, _⟩ => show win0_0.index t (0 : Fin 2) * 8192 + 1 * (y 0).val = win0_3.index t (0 : Fin 2) * 8192 + 1 * (y 0).val; omega
    | ⟨1, _⟩ => show win0_0.index t (1 : Fin 2) * 2 + 1 * (y 1).val = win0_3.index t (1 : Fin 2) * 2 + 1 * (y 1).val; omega
  have h1 : iblk m c 1 t = fun y => V m c main_arg1 (((cfg0.win 3).blk t).view.emb y) := by
    funext y
    show V m c main_arg1 (((cfg0.win 1).blk t).view.emb y) = V m c main_arg1 (((cfg0.win 3).blk t).view.emb y)
    refine congrArg (V m c main_arg1) (funext fun a => Fin.ext ?_)
    match a with
    | ⟨0, _⟩ => show win0_1.index t (0 : Fin 2) * 8192 + 1 * (y 0).val = win0_3.index t (0 : Fin 2) * 8192 + 1 * (y 0).val; omega
    | ⟨1, _⟩ => show win0_1.index t (1 : Fin 2) * 2 + 1 * (y 1).val = win0_3.index t (1 : Fin 2) * 2 + 1 * (y 1).val; omega
  have h2 : iblk m c 2 t = fun y => V m c main_arg2 (((cfg0.win 3).blk t).view.emb y) := by
    funext y
    show V m c main_arg2 (((cfg0.win 2).blk t).view.emb y) = V m c main_arg2 (((cfg0.win 3).blk t).view.emb y)
    refine congrArg (V m c main_arg2) (funext fun a => Fin.ext ?_)
    match a with
    | ⟨0, _⟩ => show win0_2.index t (0 : Fin 2) * 8192 + 1 * (y 0).val = win0_3.index t (0 : Fin 2) * 8192 + 1 * (y 0).val; omega
    | ⟨1, _⟩ => show win0_2.index t (1 : Fin 2) * 2 + 1 * (y 1).val = win0_3.index t (1 : Fin 2) * 2 + 1 * (y 1).val; omega
  rw [h0, h1, h2]
  funext j
  refine jointAccel_rows (a := 8192) (b := 8388608) (fun p => ⟨t.val * 8192 + p.val, by have := p.isLt; omega⟩)
    (((cfg0.win 3).blk t).view.emb) (fun p k => funext fun a => Fin.ext ?_) (V m c main_arg0) (V m c main_arg1) (V m c main_arg2) j
  match a with
  | ⟨0, _⟩ => show win0_3.index t (0 : Fin 2) * 8192 + 1 * p.val = t.val * 8192 + p.val; omega
  | ⟨1, _⟩ => show win0_3.index t (1 : Fin 2) * 2 + 1 * k.val = k.val; omega

/-- An index of the result is in point `t`'s block iff each coordinate is in the block's range on its axis. -/
theorem mem_block (t : Fin cfg0.N) (i : S8388608x2.Idx) :
    i ∈ ((cfg0.win 3).blk t).view.set ↔ ∀ a : Fin 2, win0_3.index t a * S8192x2.size a ≤ (i a).val ∧ (i a).val < win0_3.index t a * S8192x2.size a + S8192x2.size a := by
  show i ∈ ((View.whole main_v0).slice (win0_3.rect t)).set ↔ _
  rw [View.set_slice_whole, Rect.mem_set_unit]
  exact Iff.rfl

/-- Every entry of the result lies in some point's block: row `r` in the block of point `r / 8192`. -/
theorem covered (i : S8388608x2.Idx) : ∃ t : Fin cfg0.N, (cfg0.win 3).flush t = true ∧ i ∈ ((cfg0.win 3).blk t).view.set := by
  have hi0 : (i 0).val < 8388608 := (i 0).isLt
  have hi1 : (i 1).val < 2 := (i 1).isLt
  let t : Fin cfg0.N := ⟨(i 0).val / 8192, by show (i 0).val / 8192 < 1024; omega⟩
  obtain ⟨-, -, -, -, -, -, e6, e7⟩ := blockIdx t
  have e6' : win0_3.index t (0 : Fin 2) = (i 0).val / 8192 := e6
  refine ⟨t, flush0_3 t, ?_⟩
  rw [mem_block]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 2 ≤ (i 1).val ∧ (i 1).val < win0_3.index t (1 : Fin 2) * 2 + 2; omega

/-- After the run the result array is the row-wise function of the argument arrays. -/
theorem final (c : Dev nD) : (dats m 0 c).arrAt 3 cfg0.N = wholeAccel m c :=
  (dats m 0 c).arrAt_eq_of_cover 3 (wholeAccel m c) (fun t _ => flushed_eq m c t) covered

/-- The kernel's run: it terminates, nothing faults, the result array ends at the row-wise function of the arguments
    as launched, and the arguments are unchanged. -/
theorem run : θ_run defs (onTc (τ := τ) (main (F := Ideal))) ⟨m, fun _ => 0, ρ⟩ fun r => ∀ c : Dev nD,
      r.2.mem ((c : Thread nD τ).loc main_v0)
          = jointAccel (a := 8388608) (m ((c : Thread nD τ).loc main_arg0)) (m ((c : Thread nD τ).loc main_arg1))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceRows.lean ====
/-
  The reference's result at an entry. The reference takes the two columns of each whole argument apart, computes the two
  joint accelerations of every row (`Cert.ArmDynamics`) over vectors of all 8388608 rows, and joins the two result
  vectors as the columns of the result. So entry `(p, j)` of the result is joint `j`'s acceleration of row `p` of the
  three arguments: the join reads column `j` there, the column is the broadcast of a vector read at `p`, every
  operation under it is row by row, and a column of an argument read at `p` is that argument's entry `(p, k)`.
-/
import proofs.«136738_j38482906972929_1_alg».proof.Proof.Gen.ReferenceIdeal.Read
import proofs.«136738_j38482906972929_1_alg».proof.Proof.LibColumns
import proofs.«136738_j38482906972929_1_alg».proof.Proof.ArmDynamics

noncomputable section

namespace Cert.ReferenceIdeal.Rows

open Cert.ReferenceIdeal Cert.ReferenceIdeal.Gen Cert.ReferenceIdeal.Read Idealize.ShloMosaic Idealize.ShloMosaic.ValueIdx
  Cert.ArmDynamics

/-- The result at `(p, 0)` is the first joint's acceleration of row `p`. -/
theorem result_joint1 (q dq tau : FVec Ideal S8388608x2 .f32) (p : Fin 8388608) :
    val_main_v64 (F := Ideal) q dq tau (ix2 p (0 : Fin 2))
      = accel1 (q (ix2 p 0)) (q (ix2 p 1)) (dq (ix2 p 0)) (dq (ix2 p 1)) (tau (ix2 p 0)) (tau (ix2 p 1)) := by
  unfold val_main_v64
  refine (join_apply_zero _ _ _ p).trans ?_
  unfold val_main_v62
  refine (bcastCol_apply _ _ rfl _ p 0).trans ?_
  simp only [
    val_main_v8_apply, val_main_v9_apply, val_main_cst_apply, val_main_v10_apply, val_main_v11_apply,
    val_main_cst_0_apply, val_main_v12_apply, val_main_v13_apply, val_main_cst_1_apply, val_main_v14_apply,
    val_main_v15_apply, val_main_cst_2_apply, val_main_v16_apply, val_main_v17_apply, val_main_cst_3_apply,
    val_main_v18_apply, val_main_v19_apply, val_main_cst_4_apply, val_main_v20_apply, val_main_v21_apply,
    val_main_v22_apply, val_main_v23_apply, val_main_cst_5_apply, val_main_v24_apply, val_main_v25_apply,
    val_main_v26_apply, val_main_v27_apply, val_main_v28_apply, val_main_cst_6_apply, val_main_v29_apply,
    val_main_v30_apply, val_main_cst_7_apply, val_main_v31_apply, val_main_v32_apply, val_main_cst_8_apply,
    val_main_v33_apply, val_main_v34_apply, val_main_v35_apply, val_main_v36_apply, val_main_v37_apply,
    val_main_v38_apply, val_main_v39_apply, val_main_cst_9_apply, val_main_v40_apply, val_main_v41_apply,
    val_main_v42_apply, val_main_v43_apply, val_main_v44_apply, val_main_v47_apply, val_main_v50_apply,
    val_main_v51_apply, val_main_v52_apply, val_main_v53_apply, val_main_v54_apply, val_main_v55_apply,
    val_main_v56_apply, val_main_v57_apply, val_main_v58_apply, val_main_v59_apply, val_main_v60_apply,
    val_main_v61_apply,
    val_main_v1, val_main_v0, val_main_v3, val_main_v2, val_main_v5, val_main_v4, val_main_v7, val_main_v6, val_main_v46,
    val_main_v45, val_main_v49, val_main_v48, col0_apply, col1_apply, Ideal.hostDivf_def, Ideal.subf_def, Ideal.mulf_def,
    Ideal.addf_def, Ideal.hostUnary_cos_def, Ideal.hostUnary_sin_def, Ideal.ofBits_def, accel1, accel2, m11, m12, m22, det,
    bias1, bias2, grav1, grav2, lit]

/-- The result at `(p, 1)` is the second joint's acceleration of row `p`. -/
theorem result_joint2 (q dq tau : FVec Ideal S8388608x2 .f32) (p : Fin 8388608) :
    val_main_v64 (F := Ideal) q dq tau (ix2 p (1 : Fin 2))
      = accel2 (q (ix2 p 0)) (q (ix2 p 1)) (dq (ix2 p 0)) (dq (ix2 p 1)) (tau (ix2 p 0)) (tau (ix2 p 1)) := by
  unfold val_main_v64
  refine (join_apply_one _ _ _ p).trans ?_
  unfold val_main_v63
  refine (bcastCol_apply _ _ rfl _ p 0).trans ?_
  simp only [
    val_main_v8_apply, val_main_v9_apply, val_main_cst_apply, val_main_v10_apply, val_main_v11_apply,
    val_main_cst_0_apply, val_main_v12_apply, val_main_v13_apply, val_main_cst_1_apply, val_main_v14_apply,
    val_main_v15_apply, val_main_cst_2_apply, val_main_v16_apply, val_main_v17_apply, val_main_cst_3_apply,
    val_main_v18_apply, val_main_v19_apply, val_main_cst_4_apply, val_main_v20_apply, val_main_v21_apply,
    val_main_v22_apply, val_main_v23_apply, val_main_cst_5_apply, val_main_v24_apply, val_main_v25_apply,
    val_main_v26_apply, val_main_v27_apply, val_main_v28_apply, val_main_cst_6_apply, val_main_v29_apply,
    val_main_v30_apply, val_main_cst_7_apply, val_main_v31_apply, val_main_v32_apply, val_main_cst_8_apply,
    val_main_v33_apply, val_main_v34_apply, val_main_v35_apply, val_main_v36_apply, val_main_v37_apply,
    val_main_v38_apply, val_main_v39_apply, val_main_cst_9_apply, val_main_v40_apply, val_main_v41_apply,
    val_main_v42_apply, val_main_v43_apply, val_main_v44_apply, val_main_v47_apply, val_main_v50_apply,
    val_main_v51_apply, val_main_v52_apply, val_main_v53_apply, val_main_v54_apply, val_main_v55_apply,
    val_main_v56_apply, val_main_v57_apply, val_main_v58_apply, val_main_v59_apply, val_main_v60_apply,
    val_main_v61_apply,
    val_main_v1, val_main_v0, val_main_v3, val_main_v2, val_main_v5, val_main_v4, val_main_v7, val_main_v6, val_main_v46,
    val_main_v45, val_main_v49, val_main_v48, col0_apply, col1_apply, Ideal.hostDivf_def, Ideal.subf_def, Ideal.mulf_def,
    Ideal.addf_def, Ideal.hostUnary_cos_def, Ideal.hostUnary_sin_def, Ideal.ofBits_def, accel1, accel2, m11, m12, m22, det,
    bias1, bias2, grav1, grav2, lit]

/-- The reference's result is the whole-array function of its arguments. -/
theorem result_eq (q dq tau : FVec Ideal S8388608x2 .f32) :
    val_main_v64 (F := Ideal) q dq tau = jointAccel q dq tau := by
  funext i
  obtain ⟨p, j, rfl⟩ : ∃ (p : Fin 8388608) (j : Fin 2), i = ix2 p j := ⟨i 0, i 1, eq_ix2 i⟩
  rw [jointAccel_apply]
  obtain rfl | rfl : j = 0 ∨ j = 1 := by omega
  · exact (result_joint1 q dq tau p).trans (if_pos rfl).symm
  · exact (result_joint2 q dq tau p).trans (if_neg (by decide)).symm

end Cert.ReferenceIdeal.Rows

end
-- ==== Proof.lean ====
/-
  The joint accelerations of a two-link planar arm, 8388608 rows at a time: a Pallas kernel against its jnp reference,
  equal over the extended reals.

  Both programs compute, for every row `p` of the arguments `q`, `dq`, `tau` (each `[8388608, 2]`), the closed-form solution
  of the 2×2 system `M(q) · qdd = τ − h(q, dq)` (`Cert.ArmDynamics`: the inertia matrix, the bias, the determinant, Cramer's
  rule) and put the two accelerations side by side in row `p` of the result. The kernel does it block by block, 8192 rows
  per grid point over 1024 points; the reference does it on whole columns. They carry the same f32 words for the six
  constants and group every product and sum the same way, and at the ideal values the kernel's cosine, sine and quotient are
  the host's. So each side, read at entry `(p, j)`, IS `accel` of row `p` at joint `j`, and no algebraic law — hence no
  finiteness of the inputs — is needed.

  The pieces: `Proof/ArmDynamics.lean` states the row function and the whole-array function `jointAccel`, and that it is local
  to a row; `Proof/LibColumns.lean` (with `Proof/LibKeepdims.lean`) reads a two-column array's columns, and their join, at an
  entry; `Proof/KernelRows.lean` and `Proof/ReferenceRows.lean` read each side at an entry; `Proof/KernelArray.lean` goes from
  the kernel's blocks to its result array. The three frames are the generated ones (the reference's is its generated run with
  the result dropped), and the kernel's idealization rewrote nothing, so `preserves` is trivial.
-/
import proofs.«136738_j38482906972929_1_alg».proof.Defs
import proofs.«136738_j38482906972929_1_alg».proof.Proof.Gen.Kernel
import proofs.«136738_j38482906972929_1_alg».proof.Proof.Gen.Kernel.Skeleton
import proofs.«136738_j38482906972929_1_alg».proof.Proof.Gen.Kernel.Launch
import proofs.«136738_j38482906972929_1_alg».proof.Proof.Gen.Kernel.Points
import proofs.«136738_j38482906972929_1_alg».proof.Proof.Gen.Kernel.Frame
import proofs.«136738_j38482906972929_1_alg».proof.Proof.Gen.KernelIdeal
import proofs.«136738_j38482906972929_1_alg».proof.Proof.Gen.KernelIdeal.Skeleton
import proofs.«136738_j38482906972929_1_alg».proof.Proof.Gen.KernelIdeal.Launch
import proofs.«136738_j38482906972929_1_alg».proof.Proof.Gen.KernelIdeal.Points
import proofs.«136738_j38482906972929_1_alg».proof.Proof.Gen.KernelIdeal.Frame
import proofs.«136738_j38482906972929_1_alg».proof.Proof.Gen.ReferenceIdeal
import proofs.«136738_j38482906972929_1_alg».proof.Proof.Gen.Pre_finite_inputs
import proofs.«136738_j38482906972929_1_alg».proof.Proof.Gen.KernelIdeal.Value
import proofs.«136738_j38482906972929_1_alg».proof.Proof.Gen.ReferenceIdeal.Run
import proofs.«136738_j38482906972929_1_alg».proof.Proof.Gen.ReferenceIdeal.Read
import proofs.«136738_j38482906972929_1_alg».proof.Proof.KernelArray
import proofs.«136738_j38482906972929_1_alg».proof.Proof.ReferenceRows
import Idealize.ShloMosaic.Adequacy
import Idealize.ShloMosaic.Init

noncomputable section

namespace Cert.Proof

open Idealize.ShloMosaic Idealize.ShloMosaic.TcCoe Idealize.SL.Sem Cert.ArmDynamics

/-- The word-level kernel runs and leaves its arguments as they were. -/
theorem frame_kernel : Cert.frame_Kernel :=
  fun m ρ _ => Cert.Kernel.Gen.frame m ρ

/-- So does the kernel read at the ideal values. -/
theorem frame_kernelIdeal : Cert.frame_KernelIdeal :=
  fun m ρ _ => Cert.KernelIdeal.Gen.frame m ρ

/-- The reference's frame is its run with the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- From memories that agree on `q`, `dq`, `tau` both programs end with the result array at `jointAccel` of the arguments:
    the kernel's blocks tile it (`Whole.run`), and the reference's last value is it entry by entry (`Rows.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.Rows.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
